-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4096x4096 : Shape := ⟨2, ![4096, 4096]⟩
abbrev S4096 : Shape := ⟨1, ![4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S4096x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .f32 = 32 ∨ (Rect.block (s := S4096x4096) S1024x1024.size (cc0_transform_4 i) (hinb0_4 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S4096x4096, .f32⟩
  | .hbm, ⟨6, _⟩ => ⟨S1x4096, .f32⟩
  | .hbm, ⟨7, _⟩ => ⟨S4096x4096, .f32⟩
  | .hbm, ⟨8, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.Dense.lean ====
/-
  The masked dense layer, as one function of its four argument arrays over the extended reals:

      out (r, c) = (Σ k < 4096, x (r, k) · (w (k, c) · mask (k, c))) + bias c,

  and the one law that relates a tiled evaluation to it: the contraction over 4096 terms is the sum, over four
  consecutive runs, of each run's 1024 terms.  Addition of extended reals is commutative and associative, so the
  regrouping needs nothing of the entries (no finiteness).  A tiled evaluation adds the four runs one after the
  other onto a zero tile and adds the bias row last; `tile_eq` says that this is `dense` inside the tile.
-/
import Idealize.ShloMosaic.PureOps.Ideal
import Idealize.ShloMosaic.Lib.ValueIdx

noncomputable section

namespace Cert.MaskedDense

open Idealize.ShloMosaic Idealize.ShloMosaic.ValueIdx

/-- A whole 4096 x 4096 array, a 1024 x 1024 tile, the bias vector and its one-row tile, over the extended reals. -/
abbrev Mat : Type := (⟨2, ![4096, 4096]⟩ : Shape).Idx → EReal
abbrev Tile : Type := (⟨2, ![1024, 1024]⟩ : Shape).Idx → EReal
abbrev Row : Type := (⟨1, ![4096]⟩ : Shape).Idx → EReal
abbrev RowTile : Type := (⟨2, ![1, 1024]⟩ : Shape).Idx → EReal

/-- A sum over 4096 terms, regrouped as four consecutive runs of 1024. -/
theorem sum_runs {β : Type*} [AddCommMonoid β] (f : Fin 4096 → β) :
    ∑ k : Fin 4096, f k
      = ∑ s : Fin 4, ∑ k : Fin 1024, f ⟨1024 * s.val + k.val, by have := s.isLt; have := k.isLt; omega⟩ := by
  have e : ∑ k : Fin 4096, f k = ∑ sk : Fin 4 × Fin 1024, f (finProdFinEquiv sk) :=
    (Equiv.sum_comp (finProdFinEquiv : Fin 4 × Fin 1024 ≃ Fin 4096) f).symm
  rw [e, Fintype.sum_prod_type]
  refine Finset.sum_congr rfl fun s _ => Finset.sum_congr rfl fun k _ => congrArg f (Fin.ext ?_)
  show k.val + 1024 * s.val = 1024 * s.val + k.val
  omega

/-- The layer's result at `(r, c)`: row `r` of `x` against column `c` of the masked weights, plus the bias of column `c`. -/
def dense (X Kn Wn : Mat) (B : Row) : Mat :=
  fun i => (∑ k : Fin 4096, X (ix2 (i 0) k) * (Kn (ix2 k (i 1)) * Wn (ix2 k (i 1)))) + B (ix1 (i 1))

/-- One run's contribution to a tile: at `(p, q)`, row `p` of an x tile against column `q` of a masked weight tile. -/
def tileDot (x kn w : Tile) : Tile :=
  fun j => ∑ k : Fin 1024, x (ix2 (j 0) k) * (kn (ix2 k (j 1)) * w (ix2 k (j 1)))

/-- Row `1024·a + p` and column `1024·b + q` of the whole array, from a tile's position and the place inside it. -/
abbrev at4 (a : Fin 4) (p : Fin 1024) : Fin 4096 := ⟨1024 * a.val + p.val, by have := a.isLt; have := p.isLt; omega⟩

/-- THE TILED EVALUATION IS THE LAYER.  For the tile in row block `bi` and column block `bj`: if run `s`'s three
    tiles are the corresponding tiles of `x`, the weights and the mask, and the bias row tile is the bias of the
    tile's columns, then zero, plus the four runs' contributions, plus the bias row, is `dense` at the tile's place. -/
theorem tile_eq (X Kn Wn : Mat) (B : Row) (bi bj : Fin 4) (xs kns ws : Fin 4 → Tile) (b : RowTile)
    (hx : ∀ (s : Fin 4) (p k : Fin 1024), xs s (ix2 p k) = X (ix2 (at4 bi p) (at4 s k)))
    (hk : ∀ (s : Fin 4) (k q : Fin 1024), kns s (ix2 k q) = Kn (ix2 (at4 s k) (at4 bj q)))
    (hw : ∀ (s : Fin 4) (k q : Fin 1024), ws s (ix2 k q) = Wn (ix2 (at4 s k) (at4 bj q)))
    (hb : ∀ q : Fin 1024, b (ix2 (0 : Fin 1) q) = B (ix1 (at4 bj q))) (p q : Fin 1024) :
    (0 + ∑ s : Fin 4, tileDot (xs s) (kns s) (ws s) (ix2 p q)) + b (ix2 (0 : Fin 1) q)
      = dense X Kn Wn B (ix2 (at4 bi p) (at4 bj q)) := by
  unfold dense tileDot
  rw [zero_add, hb, sum_runs]
  refine congrArg (· + B (ix1 (at4 bj q))) (Finset.sum_congr rfl fun s _ => Finset.sum_congr rfl fun k _ => ?_)
  show xs s (ix2 p k) * (kns s (ix2 k q) * ws s (ix2 k q)) = _
  rw [hx, hk, hw]

end Cert.MaskedDense

end
-- ==== Proof.Reference.lean ====
/-
  The reference computes the masked dense layer: its five host operations — the masked weights `w · mask`, the
  product of `x` with them contracted over `x`'s columns, the bias spread over the rows, the sum — read at an
  index `(r, c)` are `(Σ k, x (r, k) · (w (k, c) · mask (k, c))) + bias c`, which is `dense`.
-/
import proofs.«139160_j18107582120284_1_alg».proof.Proof.Gen.ReferenceIdeal.Read
import proofs.«139160_j18107582120284_1_alg».proof.Proof.Dense

noncomputable section

namespace Cert.ReferenceIdeal.RefValue

open Cert.ReferenceIdeal Cert.ReferenceIdeal.Read Idealize.ShloMosaic Idealize.ShloMosaic.ValueIdx

/-- The reference's result, as a function of its four arguments at the extended reals, is `dense` of them. -/
theorem result_eq (x0 x1 x2 : (⟨S4096x4096, .f32⟩ : BufTy).Contents (Elt Ideal))
    (x3 : (⟨S4096, .f32⟩ : BufTy).Contents (Elt Ideal)) :
    val_main_v4 (F := Ideal) x0 x1 x2 x3 = Cert.MaskedDense.dense x0 x1 x2 x3 := by
  funext i
  have el : ∀ k : Fin 4096, lidx_main_v1 i k = ix2 (i 0) k := fun k => funext fun a => Fin.ext (by
    match a with
    | ⟨0, _⟩ => rfl
    | ⟨1, _⟩ => rfl)
  have er : ∀ k : Fin 4096, ridx_main_v1 i k = ix2 k (i 1) := fun k => funext fun a => Fin.ext (by
    match a with
    | ⟨0, _⟩ => rfl
    | ⟨1, _⟩ => rfl)
  have eb : idx_main_v2 (idx_main_v3 i) = ix1 (i 1) := funext fun a => Fin.ext (by
    match a with
    | ⟨0, _⟩ => rfl)
  rw [val_main_v4_apply, val_main_v1_apply, val_main_v3_apply, val_main_v2_apply]
  simp only [val_main_v0_apply, el, er, eb, Ideal.addf_def, Ideal.mulf_def]
  rfl

end Cert.ReferenceIdeal.RefValue

end
-- ==== Proof.Pieces.lean ====
/-
  What one grid point's body leaves behind, case by case, as the body's own arithmetic.

  The body keeps a 1024 x 1024 accumulator tile across the four points of a contraction run.  Writing
  `step kn w x acc` for the accumulator update — `acc` plus the product of the x tile with the masked weight tile
  `kn · w` — and `zeroTile` for the tile of zeros:
    * at the run's first point the accumulator is reset and updated: it ends at `step kn w x zeroTile`;
    * at a later point it ends at `step kn w x acc` of what the point before left;
    * at the run's last point, besides, the output tile is written: the updated accumulator plus the bias row.
-/
import proofs.«139160_j18107582120284_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- The tile of zeros the reset stores. -/
abbrev zeroTile : Vec F S1024x1024 .f32 := k0_pay1

/-- The accumulator update: `acc` plus the x tile times the masked weight tile (weights `kn`, mask `w`). -/
abbrev step (kn w x acc : Vec F S1024x1024 .f32) : Vec F S1024x1024 .f32 := k0_pay2 kn w x acc

/-- The output tile: the accumulator plus the bias row spread over the tile's rows. -/
abbrev emit (acc : Vec F S1024x1024 .f32) (b : Vec F S1x1024 .f32) : Vec F S1024x1024 .f32 := k0_pay3 acc b

/-- First point of a run: the accumulator is zeroed, read back, and updated. -/
theorem acc_first (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : cond0_0 i) (hc1 : ¬cond0_1 i)
    (x0 x1 x2 : Vec F S1024x1024 .f32) (x3 : Vec F S1x1024 .f32) :
    sout0_A_0 c i a3 h3 a4 h4 a5 h5 a6 h6 a7 h7 a8 h8 hc0 hc1 x0 x1 x2 x3 = step x1 x2 x0 zeroTile := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz]
  simp only [View.readAt_eq_ld, h3.read_unread, h4.read_unread, h5.read_unread, View.ld_unit_zero (S := S1024x1024) hz,
    View.readCov_unit_zero (S := S1024x1024) _ hz]

/-- A middle point of a run: the accumulator is updated over what the point before left. -/
theorem acc_middle (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : ¬cond0_1 i)
    (x0 x1 x2 : Vec F S1024x1024 .f32) (x3 : Vec F S1x1024 .f32) (acc : Vec F S1024x1024 .f32) :
    sout0_B_0 c i a3 h3 a4 h4 a5 h5 a6 h6 a7 h7 a8 h8 hc0 hc1 x0 x1 x2 x3 acc = step x1 x2 x0 acc := by
  unfold sout0_B_0
  rw [View.read_writes_eq_canon _ _ _ (scover0_B_0 c i a3 h3 a4 h4 a5 h5 a6 h6 a7 h7 a8 h8 hc0 hc1 x0 x1 x2 x3 acc)]
  unfold kernelRun0_B
  dsimp only
  sl_unfold_words
  rw [View.canon_unit_zero hz]
  simp only [View.readAt_eq_ld, h3.read_unread, h4.read_unread, h5.read_unread, h8.read_unread, View.ld_unit_zero (S := S1024x1024) hz]

/-- Last point of a run, the accumulator: updated as at a middle point. -/
theorem acc_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 x1 x2 : Vec F S1024x1024 .f32) (x3 : Vec F S1x1024 .f32) (acc : Vec F S1024x1024 .f32) :
    sout0_C_0 c i a3 h3 a4 h4 a5 h5 a6 h6 a7 h7 a8 h8 hc0 hc1 x0 x1 x2 x3 acc = step x1 x2 x0 acc := by
  unfold sout0_C_0
  rw [View.read_writes_eq_canon _ _ _ (scover0_C_0 c i a3 h3 a4 h4 a5 h5 a6 h6 a7 h7 a8 h8 hc0 hc1 x0 x1 x2 x3 acc)]
  unfold kernelRun0_C
  dsimp only
  sl_unfold_words
  rw [View.canon_unit_zero hz]
  simp only [View.readAt_eq_ld, h3.read_unread, h4.read_unread, h5.read_unread, h8.read_unread, View.ld_unit_zero (S := S1024x1024) hz]

/-- Last point of a run, the output tile: the updated accumulator, read back, plus the bias row. -/
theorem out_last (c : Dev nD) (i : grid0.Coords) (a3 : Memref sig .tc .vmem S1024x1024 .f32) (h3 : a3.IsWhole) (a4 : Memref sig .tc .vmem S1024x1024 .f32) (h4 : a4.IsWhole) (a5 : Memref sig .tc .vmem S1024x1024 .f32) (h5 : a5.IsWhole) (a6 : Memref sig .tc .vmem S1x1024 .f32) (h6 : a6.IsWhole) (a7 : Memref sig .tc .vmem S1024x1024 .f32) (h7 : a7.IsWhole) (a8 : Memref sig .tc .vmem S1024x1024 .f32) (h8 : a8.IsWhole) (hc0 : ¬cond0_0 i) (hc1 : cond0_1 i)
    (x0 x1 x2 : Vec F S1024x1024 .f32) (x3 : Vec F S1x1024 .f32) (acc : Vec F S1024x1024 .f32) :
    out0_C_4 c i a3 h3 a4 h4 a5 h5 a6 h6 a7 h7 a8 h8 hc0 hc1 x0 x1 x2 x3 acc = emit (step x1 x2 x0 acc) x3 := by
  unfold out0_C_4
  rw [View.read_writes_eq_canon _ _ _ (cover0_C_4 c i a3 h3 a4 h4 a5 h5 a6 h6 a7 h7 a8 h8 hc0 hc1 x0 x1 x2 x3 acc)]
  unfold kernelRun0_C
  dsimp only
  sl_unfold_words
  rw [View.canon_unit_zero hz]
  simp only [View.readAt_eq_ld, h3.read_unread, h4.read_unread, h5.read_unread, h6.read_unread, h8.read_unread,
    View.ld_unit_zero (S := S1024x1024) hz, View.ld_unit_zero (S := S1x1024) hz, View.readCov_unit_zero (S := S1024x1024) _ hz]

end Cert.KernelIdeal.Pieces

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.Payload.lean ====
/-
  The body's arithmetic read at one place `(p, q)` of a tile, over the extended reals.

  Format changes are the identity there and the matrix unit's product into a zero accumulator is the exact sum over
  the contracted axis, so:
    * the tile of zeros reads `0`;
    * the accumulator update reads `acc (p, q) + Σ k, x (p, k) · (kn (k, q) · w (k, q))` — the accumulator plus one
      run's contribution `tileDot`;
    * the output tile reads `acc (p, q) + b (0, q)`, the bias row spread over the tile's rows.
-/
import proofs.«139160_j18107582120284_1_alg».proof.Proof.Pieces
import proofs.«139160_j18107582120284_1_alg».proof.Proof.LibRowOps
import proofs.«139160_j18107582120284_1_alg».proof.Proof.Dense
import Idealize.ShloMosaic.PureOps.Ideal.Laws

noncomputable section

namespace Cert.KernelIdeal.Payload

open Cert.KernelIdeal Cert.KernelIdeal.Gen Cert.KernelIdeal.Pieces Idealize.ShloMosaic Idealize.ShloMosaic.ValueIdx

/-- The reset's tile is zero everywhere. -/
theorem zeroTile_apply (j : S1024x1024.Idx) : zeroTile (F := Ideal) j = 0 := by
  show k0_pay1 (F := Ideal) j = 0
  unfold k0_pay1
  simp only [shapeCast_self]
  exact Ideal.ofBits_zero_f32

/-- The accumulator update at `(p, q)`: the accumulator there plus the run's contribution there. -/
theorem step_apply (kn w x acc : Vec Ideal S1024x1024 .f32) (p q : Fin 1024) :
    step kn w x acc (ix2 p q) = acc (ix2 p q) + Cert.MaskedDense.tileDot x kn w (ix2 p q) := by
  show k0_pay2 kn w x acc (ix2 p q) = _
  unfold k0_pay2
  simp only [shapeCast_self]
  refine congrArg (acc (ix2 p q) + ·) ?_
  refine (Cert.RowOps.matmul_apply (M := 1024) (K := 1024) (N := 1024) Facts₀.dot_S1024x1024_S1024x1024_S1024x1024_1_0_0_1_n_n_wf none
    (truncf .bf16 x Facts₀.bitsLt_bf16_f32) (truncf .bf16 (mulf kn w) Facts₀.bitsLt_bf16_f32) p q).trans ?_
  rfl

/-- The output tile at `(p, q)`: the accumulator there plus the bias row's entry of column `q`. -/
theorem emit_apply (acc : Vec Ideal S1024x1024 .f32) (b : Vec Ideal S1x1024 .f32) (p q : Fin 1024) :
    emit acc b (ix2 p q) = acc (ix2 p q) + b (ix2 (0 : Fin 1) q) := by
  show k0_pay3 acc b (ix2 p q) = _
  unfold k0_pay3
  refine congrArg (acc (ix2 p q) + ·) ?_
  exact Cert.RowOps.rowParam_spread_apply (a := 1024) (b := 1024) b Facts₀.shapeCasts_S1x1024_S1x1024 Facts₀.broadcasts_S1x1024_S1024x1024 p q

end Cert.KernelIdeal.Payload

end
-- ==== Proof.Tiles.lean ====
/-
  Where each window's tile sits.  The grid is 4 x 4 x 4 with the contraction axis fastest: point `t` is row block
  `t / 16`, column block `(t / 4) % 4`, contraction run `t % 4`.  At point `t`
    * the x tile is rows `1024·(t/16) + p`, columns `1024·(t%4) + k` of `x`;
    * the weight and mask tiles are rows `1024·(t%4) + k`, columns `1024·((t/4)%4) + q` of their arrays;
    * the bias tile is entries `1024·((t/4)%4) + q` of the bias, which the host recast as one row;
    * the output tile is rows `1024·(t/16) + p`, columns `1024·((t/4)%4) + q` of the result.
-/
import proofs.«139160_j18107582120284_1_alg».proof.Proof.Gen.KernelIdeal.Frame
import proofs.«139160_j18107582120284_1_alg».proof.Proof.Dense
import Idealize.ShloMosaic.Lib.Pipeline.Value
import Idealize.ShloMosaic.Lib.ValueIdx
import Idealize.ShloMosaic.Lib.StableHlo.Run

noncomputable section

namespace Cert.KernelIdeal.Tiles

open Cert.KernelIdeal Cert.KernelIdeal.Gen Idealize.ShloMosaic Idealize.ShloMosaic.TcCoe Idealize.ShloMosaic.ValueIdx
open Idealize.SL.Sem Idealize.ShloMosaic.StableHlo
open Cert.MaskedDense (at4)

variable {F : FTy → Type} [FloatOps F]
variable (m : (ℓ : Loc nD τ sig) → Buf (Elt F) ℓ)

/-- The block indices of every window at every grid point, decided over the 64 points. -/
theorem block_index : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val % 4 ∧ win0_2.index t (1 : Fin 2) = t.val / 4 % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-- The four input tiles at point `t`, at their literal types. -/
abbrev xTile (c : Dev nD) (t : Fin cfg0.N) : Vec F S1024x1024 .f32 := iblk m c 0 t
abbrev kTile (c : Dev nD) (t : Fin cfg0.N) : Vec F S1024x1024 .f32 := iblk m c 1 t
abbrev wTile (c : Dev nD) (t : Fin cfg0.N) : Vec F S1024x1024 .f32 := iblk m c 2 t
abbrev bTile (c : Dev nD) (t : Fin cfg0.N) : Vec F S1x1024 .f32 := iblk m c 3 t

/-- The x tile at point `t`, in row block `a = t / 16` and contraction run `b = t % 4`. -/
theorem xTile_apply (c : Dev nD) (t : Fin cfg0.N) (a b : Fin 4) (ha : a.val = t.val / 16) (hb : b.val = t.val % 4)
    (p k : Fin 1024) :
    xTile m c t (ix2 p k) = m ((c : Thread nD τ).loc main_arg0) (ix2 (at4 a p) (at4 b k)) := by
  obtain ⟨e0, e1, -⟩ := block_index t
  show iblk m c 0 t (ix2 p k) = _
  unfold iblk
  rw [View.read_apply]
  show V m c main_arg0 _ = _
  rw [V_main_arg0]
  refine congrArg (m ((c : Thread nD τ).loc main_arg0)) (funext fun ax => Fin.ext ?_)
  match ax with
  | ⟨0, _⟩ => show win0_0.index t (0 : Fin 2) * 1024 + 1 * p.val = 1024 * a.val + p.val; rw [e0, ha]; omega
  | ⟨1, _⟩ => show win0_0.index t (1 : Fin 2) * 1024 + 1 * k.val = 1024 * b.val + k.val; rw [e1, hb]; omega

/-- The weight tile at point `t`, in contraction run `a = t % 4` and column block `b = (t / 4) % 4`. -/
theorem kTile_apply (c : Dev nD) (t : Fin cfg0.N) (a b : Fin 4) (ha : a.val = t.val % 4) (hb : b.val = t.val / 4 % 4)
    (k q : Fin 1024) :
    kTile m c t (ix2 k q) = m ((c : Thread nD τ).loc main_arg1) (ix2 (at4 a k) (at4 b q)) := by
  obtain ⟨-, -, e0, e1, -⟩ := block_index t
  show iblk m c 1 t (ix2 k q) = _
  unfold iblk
  rw [View.read_apply]
  show V m c main_arg1 _ = _
  rw [V_main_arg1]
  refine congrArg (m ((c : Thread nD τ).loc main_arg1)) (funext fun ax => Fin.ext ?_)
  match ax with
  | ⟨0, _⟩ => show win0_1.index t (0 : Fin 2) * 1024 + 1 * k.val = 1024 * a.val + k.val; rw [e0, ha]; omega
  | ⟨1, _⟩ => show win0_1.index t (1 : Fin 2) * 1024 + 1 * q.val = 1024 * b.val + q.val; rw [e1, hb]; omega

/-- The mask tile at point `t`: the same place as the weight tile, in the mask array. -/
theorem wTile_apply (c : Dev nD) (t : Fin cfg0.N) (a b : Fin 4) (ha : a.val = t.val % 4) (hb : b.val = t.val / 4 % 4)
    (k q : Fin 1024) :
    wTile m c t (ix2 k q) = m ((c : Thread nD τ).loc main_arg2) (ix2 (at4 a k) (at4 b q)) := by
  obtain ⟨-, -, -, -, e0, e1, -⟩ := block_index t
  show iblk m c 2 t (ix2 k q) = _
  unfold iblk
  rw [View.read_apply]
  show V m c main_arg2 _ = _
  rw [V_main_arg2]
  refine congrArg (m ((c : Thread nD τ).loc main_arg2)) (funext fun ax => Fin.ext ?_)
  match ax with
  | ⟨0, _⟩ => show win0_2.index t (0 : Fin 2) * 1024 + 1 * k.val = 1024 * a.val + k.val; rw [e0, ha]; omega
  | ⟨1, _⟩ => show win0_2.index t (1 : Fin 2) * 1024 + 1 * q.val = 1024 * b.val + q.val; rw [e1, hb]; omega

/-- The one-row array the bias window stages is the bias vector recast (the host's reshape before the call). -/
theorem biasRow_eq (c : Dev nD) :
    (V m c main_v0 : S1x4096.Idx → Elt F .f32)
      = shapeCast S1x4096 (m ((c : Thread nD τ).loc main_arg3)) Facts₀.shapeCasts_S4096_S1x4096 := by
  dsimp only [Gen.V, Gen.hostOps0]
  after_results
  rfl

/-- The bias tile at point `t`, in column block `b = (t / 4) % 4`: its one row holds the bias of the tile's columns. -/
theorem bTile_apply (c : Dev nD) (t : Fin cfg0.N) (b : Fin 4) (hb : b.val = t.val / 4 % 4) (q : Fin 1024) :
    bTile m c t (ix2 (0 : Fin 1) q) = m ((c : Thread nD τ).loc main_arg3) (ix1 (at4 b q)) := by
  obtain ⟨-, -, -, -, -, -, e0, e1, -⟩ := block_index t
  show iblk m c 3 t (ix2 (0 : Fin 1) q) = _
  unfold iblk
  rw [View.read_apply]
  show V m c main_v0 _ = _
  rw [biasRow_eq]
  refine shapeCast_apply _ _ _ _ ?_
  show ((⟨1, ![4096]⟩ : Shape).rowMajor (ix1 (at4 b q))).val
    = ((⟨2, ![1, 4096]⟩ : Shape).rowMajor (((cfg0.win 3).blk t).view.emb (ix2 (0 : Fin 1) q))).val
  rw [Shape.rowMajor_val_one, Shape.rowMajor_val_two]
  show 1024 * b.val + q.val = (win0_3.index t (0 : Fin 2) * 1 + 1 * 0) * 4096 + (win0_3.index t (1 : Fin 2) * 1024 + 1 * q.val)
  rw [e0, e1, hb]
  omega

/-- Place `(p, q)` of the output tile at point `t` is row `1024·(t/16) + p`, column `1024·((t/4)%4) + q` of the result. -/
theorem outTile_emb (t : Fin cfg0.N) (a b : Fin 4) (ha : a.val = t.val / 16) (hb : b.val = t.val / 4 % 4) (p q : Fin 1024) :
    ((cfg0.win 4).blk t).view.emb (ix2 p q) = ix2 (at4 a p) (at4 b q) := by
  obtain ⟨-, -, -, -, -, -, -, -, e0, e1⟩ := block_index t
  refine funext fun ax => Fin.ext ?_
  match ax with
  | ⟨0, _⟩ => show win0_4.index t (0 : Fin 2) * 1024 + 1 * p.val = 1024 * a.val + p.val; rw [e0, ha]; omega
  | ⟨1, _⟩ => show win0_4.index t (1 : Fin 2) * 1024 + 1 * q.val = 1024 * b.val + q.val; rw [e1, hb]; omega

end Cert.KernelIdeal.Tiles

end
-- ==== Proof.Result.lean ====
/-
  The kernel's result array is the masked dense layer of its arguments.

  A contraction run is four consecutive grid points `4·u, …, 4·u + 3` that share an output tile.  Point `n`
  contributes `contrib n`, the 1024-term product of its x tile with its masked weight tile.  The accumulator is
  reset at the run's first point and each point adds its contribution, so after the run's point `t` it holds
  `0 + Σ s ≤ t % 4, contrib (4·(t/4) + s)`.  The run's last point writes the accumulator plus the bias row to the
  output tile, and only that point's tile is written back; these tiles, one per run, cover the result array.
  Inside each tile the four contributions are the four 1024-runs of the layer's contraction over 4096 terms.
-/
import proofs.«139160_j18107582120284_1_alg».proof.Proof.Gen.KernelIdeal.Value
import proofs.«139160_j18107582120284_1_alg».proof.Proof.Payload
import proofs.«139160_j18107582120284_1_alg».proof.Proof.Tiles

noncomputable section

namespace Cert.KernelIdeal.Result

open Cert.KernelIdeal Cert.KernelIdeal.Gen Cert.KernelIdeal.Pieces Cert.KernelIdeal.Tiles
open Idealize.ShloMosaic Idealize.ShloMosaic.TcCoe Idealize.ShloMosaic.ValueIdx Idealize.SL.Sem
open Idealize.ShloMosaic.Pipeline (Dat)
open Cert.MaskedDense (at4 tileDot dense)

variable (m : (ℓ : Loc nD τ sig) → Buf (Elt Ideal) ℓ) (ρ : Dev nD → PrngReg)

/-! ## The accumulator is a running sum of the points' contributions -/

/-- Point `n`'s contribution to its tile: its x tile against its masked weight tile (zero past the grid, where it
    is never read). -/
def contrib (c : Dev nD) (n : ℕ) : S1024x1024.Idx → EReal :=
  if h : n < cfg0.N then tileDot (xTile m c ⟨n, h⟩) (kTile m c ⟨n, h⟩) (wTile m c ⟨n, h⟩) else fun _ => 0

theorem contrib_of_lt (c : Dev nD) (n : ℕ) (h : n < cfg0.N) :
    contrib m c n = tileDot (xTile m c ⟨n, h⟩) (kTile m c ⟨n, h⟩) (wTile m c ⟨n, h⟩) := dif_pos h

/-- At a run's first point the accumulator ends at zero plus the point's contribution, whatever it held. -/
theorem acc_reset (c : Dev nD) (n : ℕ) (h : n < cfg0.N) (h0 : n % 4 = 0) (acc : Vec Ideal S1024x1024 .f32)
    (j : S1024x1024.Idx) : Value.scAt0_0 m c n h acc j = 0 + contrib m c n j := by
  have h1 : ¬n % 4 = 3 := by omega
  obtain ⟨p, q, rfl⟩ : ∃ (p q : Fin 1024), j = ix2 p q := ⟨j 0, j 1, eq_ix2 j⟩
  unfold Value.scAt0_0
  rw [dif_pos h0, dif_neg h1, Pieces.acc_first, contrib_of_lt m c n h]
  refine (Payload.step_apply _ _ _ _ p q).trans ?_
  rw [Payload.zeroTile_apply]

/-- At a later point of a run the accumulator ends at what it held plus the point's contribution. -/
theorem acc_step (c : Dev nD) (n : ℕ) (h : n < cfg0.N) (h0 : ¬n % 4 = 0) (acc : Vec Ideal S1024x1024 .f32)
    (j : S1024x1024.Idx) : Value.scAt0_0 m c n h acc j = acc j + contrib m c n j := by
  obtain ⟨p, q, rfl⟩ : ∃ (p q : Fin 1024), j = ix2 p q := ⟨j 0, j 1, eq_ix2 j⟩
  unfold Value.scAt0_0
  rw [dif_neg h0, contrib_of_lt m c n h]
  by_cases h1 : n % 4 = 3
  · rw [dif_pos h1, Pieces.acc_last]
    exact Payload.step_apply _ _ _ _ p q
  · rw [dif_neg h1, Pieces.acc_middle]
    exact Payload.step_apply _ _ _ _ p q

/-- After point `t` the accumulator holds zero plus the contributions of its run's points up to `t`. -/
theorem acc_at (c : Dev nD) (t : Fin cfg0.N) (j : S1024x1024.Idx) :
    (outsAt0 m c t.val t.isLt).2 j
      = 0 + ∑ s ∈ Finset.range (t.val % 4 + 1), contrib m c (4 * (t.val / 4) + s) j := by
  refine (congrFun (Value.soutsAt0_0_eq m c t) j).trans ?_
  exact Pipeline.accAt_add_apply _ _ (fun _ => 0) (contrib m c) (4 * (t.val / 4)) 3
    (fun h i => acc_reset m c _ h (by omega) _ i)
    (fun n h acc i hlt hle => acc_step m c n h (by omega) acc i)
    (t.val % 4) (by omega) _ j

/-- At a run's last point the output tile is the accumulator the point leaves, plus the bias row. -/
theorem out_at (c : Dev nD) (t : Fin cfg0.N) (h3 : t.val % 4 = 3) :
    (outsAt0 m c t.val t.isLt).1 = emit ((outsAt0 m c t.val t.isLt).2) (bTile m c t) := by
  have h0 : ¬t.val % 4 = 0 := by omega
  rw [outsAt0_C m c t h0 h3]
  dsimp only
  rw [Pieces.out_last, Pieces.acc_last]

/-! ## The tile a run writes back is the layer's tile -/

/-- The result array: the masked dense layer of the four arguments. -/
abbrev result (c : Dev nD) : Buf (Elt Ideal) ((c : Thread nD τ).loc main_v1) :=
  dense (m ((c : Thread nD τ).loc main_arg0)) (m ((c : Thread nD τ).loc main_arg1))
    (m ((c : Thread nD τ).loc main_arg2)) (m ((c : Thread nD τ).loc main_arg3))

/-- What a run's last point writes back is its tile of `result`: the four contributions are the four runs of the
    contraction, and the bias row is the bias of the tile's columns. -/
theorem flushed_eq (c : Dev nD) (t : Fin cfg0.N) (hf : (cfg0.win 4).flush t = true) :
    (dats m 0 c).flushed 4 t = ((cfg0.win 4).blk t).view.read (Elt Ideal) (result m c) := by
  have h3 : t.val % 4 = 3 := (flush0_4 t).mp hf
  have hN : t.val < 64 := lt_of_lt_of_eq t.isLt (show cfg0.N = 64 from N_0)
  obtain ⟨bi, hbi⟩ : ∃ bi : Fin 4, bi.val = t.val / 16 := ⟨⟨t.val / 16, by omega⟩, rfl⟩
  obtain ⟨bj, hbj⟩ : ∃ bj : Fin 4, bj.val = t.val / 4 % 4 := ⟨⟨t.val / 4 % 4, by omega⟩, rfl⟩
  have hpt : ∀ s : Fin 4, 4 * (t.val / 4) + s.val < cfg0.N := fun s =>
    lt_of_lt_of_eq (show 4 * (t.val / 4) + s.val < 64 by have := s.isLt; omega) (show 64 = cfg0.N from N_0.symm)
  rw [Value.flushed4]
  funext (j : S1024x1024.Idx)
  obtain ⟨p, q, rfl⟩ : ∃ (p q : Fin 1024), j = ix2 p q := ⟨j 0, j 1, eq_ix2 j⟩
  show (outsAt0 m c t.val t.isLt).1 (ix2 p q) = result m c (((cfg0.win 4).blk t).view.emb (ix2 p q))
  rw [outTile_emb t bi bj hbi hbj p q, out_at m c t h3]
  refine (Payload.emit_apply _ _ p q).trans ?_
  rw [acc_at m c t (ix2 p q), h3, Finset.sum_range]
  refine (congrArg (fun z => (0 + z) + bTile m c t (ix2 (0 : Fin 1) q))
    (Finset.sum_congr rfl fun s _ => congrFun (contrib_of_lt m c _ (hpt s)) (ix2 p q))).trans ?_
  exact Cert.MaskedDense.tile_eq _ _ _ _ bi bj (fun s => xTile m c ⟨_, hpt s⟩) (fun s => kTile m c ⟨_, hpt s⟩)
    (fun s => wTile m c ⟨_, hpt s⟩) (bTile m c t)
    (fun s p k => xTile_apply m c ⟨_, hpt s⟩ bi s
      (by show bi.val = (4 * (t.val / 4) + s.val) / 16; have := s.isLt; omega)
      (by show s.val = (4 * (t.val / 4) + s.val) % 4; have := s.isLt; omega) p k)
    (fun s k q => kTile_apply m c ⟨_, hpt s⟩ s bj
      (by show s.val = (4 * (t.val / 4) + s.val) % 4; have := s.isLt; omega)
      (by show bj.val = (4 * (t.val / 4) + s.val) / 4 % 4; have := s.isLt; omega) k q)
    (fun s k q => wTile_apply m c ⟨_, hpt s⟩ s bj
      (by show s.val = (4 * (t.val / 4) + s.val) % 4; have := s.isLt; omega)
      (by show bj.val = (4 * (t.val / 4) + s.val) / 4 % 4; have := s.isLt; omega) k q)
    (fun q => bTile_apply m c t bj hbj q) p q

/-! ## The written-back tiles cover the result -/

/-- An index is in point `t`'s output tile iff each coordinate is in the tile's range on its axis. -/
theorem mem_tile (t : Fin cfg0.N) (i : S4096x4096.Idx) :
    i ∈ ((cfg0.win 4).blk t).view.set
      ↔ ∀ a : Fin 2, win0_4.index t a * S1024x1024.size a ≤ (i a).val
          ∧ (i a).val < win0_4.index t a * S1024x1024.size a + S1024x1024.size a := by
  show i ∈ ((View.whole main_v1).slice (win0_4.rect t)).set ↔ _
  rw [View.set_slice_whole, Rect.mem_set_unit]
  exact Iff.rfl

/-- Every index of the result lies in the tile some run's last point writes back: row block `r / 1024`, column
    block `c / 1024`, last point of that run. -/
theorem cover (i : S4096x4096.Idx) :
    ∃ t : Fin cfg0.N, (cfg0.win 4).flush t = true ∧ i ∈ ((cfg0.win 4).blk t).view.set := by
  have h0 : (i 0).val < 4096 := (i 0).isLt
  have h1 : (i 1).val < 4096 := (i 1).isLt
  have hN : cfg0.N = 64 := N_0
  obtain ⟨t, ht⟩ : ∃ t : Fin cfg0.N, t.val = 16 * ((i 0).val / 1024) + 4 * ((i 1).val / 1024) + 3 :=
    ⟨⟨16 * ((i 0).val / 1024) + 4 * ((i 1).val / 1024) + 3,
      lt_of_lt_of_eq (show 16 * ((i 0).val / 1024) + 4 * ((i 1).val / 1024) + 3 < 64 by omega) hN.symm⟩, rfl⟩
  obtain ⟨-, -, -, -, -, -, -, -, e0, e1⟩ := block_index t
  refine ⟨t, (flush0_4 t).mpr (by omega), ?_⟩
  rw [mem_tile]
  intro a
  match a with
  | ⟨0, _⟩ =>
    show win0_4.index t (0 : Fin 2) * 1024 ≤ (i 0).val ∧ (i 0).val < win0_4.index t (0 : Fin 2) * 1024 + 1024
    rw [e0]; omega
  | ⟨1, _⟩ =>
    show win0_4.index t (1 : Fin 2) * 1024 ≤ (i 1).val ∧ (i 1).val < win0_4.index t (1 : Fin 2) * 1024 + 1024
    rw [e1]; omega

/-- After the run the result array is the masked dense layer of the arguments. -/
theorem final (c : Dev nD) : (dats m 0 c).arrAt 4 cfg0.N = result m c :=
  (dats m 0 c).arrAt_eq_of_cover 4 (result m c) (flushed_eq m c) cover

/-- The kernel's run: it terminates with the result array at `dense` of the arguments, the arguments unchanged. -/
theorem run : θ_run defs (onTc (τ := τ) (main (F := Ideal))) ⟨m, fun _ => 0, ρ⟩ fun r => ∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.lean ====
/-
  A masked dense layer: `out = x · (w ∘ mask) + bias` over f32[4096, 4096], with the bias added to every row.

  The kernel tiles the product 4 x 4 x 4 in tiles of 1024: for each output tile it zeroes an accumulator, adds at
  each of four points the product of an x tile with the masked weight tile (operands narrowed to bf16 first), and at
  the fourth point writes the accumulator plus the bias row.  The reference masks the weights, takes one whole
  product and adds the bias.

  Over the extended reals a change of float format is the identity and both products are exact sums, so the kernel's
  tile entry is `((((0 + S₀) + S₁) + S₂) + S₃) + bias`, with `Sₛ` the sum over the s-th 1024 contracted indices, and
  the reference's entry is the sum over all 4096 indices plus the bias.  Sums of extended reals may be regrouped
  freely (addition is commutative and associative there), so the two agree at every entry; nothing is asked of the
  inputs beyond the stated precondition, which the argument never opens.

  The modules: `Dense` states the layer as one function and proves the regrouping; `Reference` reads the
  reference's operations as that function; `Pieces`, `Payload` and `Tiles` read one grid point's body and its tiles;
  `Result` sums a run's four points and covers the result array with the written-back tiles.  The three frames are
  the generated ones, and there is no idealization rewrite to account for.
-/
import proofs.«139160_j18107582120284_1_alg».proof.Defs
import proofs.«139160_j18107582120284_1_alg».proof.Proof.Gen.Kernel
import proofs.«139160_j18107582120284_1_alg».proof.Proof.Gen.Kernel.Skeleton
import proofs.«139160_j18107582120284_1_alg».proof.Proof.Gen.Kernel.Launch
import proofs.«139160_j18107582120284_1_alg».proof.Proof.Gen.Kernel.Points
import proofs.«139160_j18107582120284_1_alg».proof.Proof.Gen.Kernel.Frame
import proofs.«139160_j18107582120284_1_alg».proof.Proof.Gen.KernelIdeal
import proofs.«139160_j18107582120284_1_alg».proof.Proof.Gen.KernelIdeal.Skeleton
import proofs.«139160_j18107582120284_1_alg».proof.Proof.Gen.KernelIdeal.Launch
import proofs.«139160_j18107582120284_1_alg».proof.Proof.Gen.KernelIdeal.Points
import proofs.«139160_j18107582120284_1_alg».proof.Proof.Gen.KernelIdeal.Frame
import proofs.«139160_j18107582120284_1_alg».proof.Proof.Gen.ReferenceIdeal
import proofs.«139160_j18107582120284_1_alg».proof.Proof.Gen.Pre_finite_inputs
import proofs.«139160_j18107582120284_1_alg».proof.Proof.Gen.KernelIdeal.Value
import proofs.«139160_j18107582120284_1_alg».proof.Proof.Gen.ReferenceIdeal.Run
import proofs.«139160_j18107582120284_1_alg».proof.Proof.Gen.ReferenceIdeal.Read
import proofs.«139160_j18107582120284_1_alg».proof.Proof.Reference
import proofs.«139160_j18107582120284_1_alg».proof.Proof.Result
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is five host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the four arguments, end with the masked dense layer of those
    arguments in their result arrays: the kernel by summing each run's four contributions tile by tile, the
    reference operation by operation. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
